-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S64 : Shape := ⟨1, ![64]⟩
abbrev S32x256x256 : Shape := ⟨3, ![32, 256, 256]⟩
abbrev S32x256 : Shape := ⟨2, ![32, 256]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_
  bcast_S_S32x256 : S_.BroadcastsInDim S32x256 (![] : Fin 0 → Fin S32x256.rank)
  reducesTo_S32x256_S_d0_1 : S32x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg1 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S64x2048x256 .f32) (main_arg1 : IVec S64 32) (main_arg2 : FVec F S32x256x256 .f32) (main_arg3 : FVec F S32x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S32x256x256 .f32 := Host.absf main_arg2
  let main_cst_0 : FVec F S_ .f32 := constant S_ .f32 0x7F800000#32
  let main_v5 : FVec F S32x256x256 .f32 := broadcastInDim S32x256x256 ![] bcast_S_S32x256x256 main_cst_0
  let main_v6 : IVec S32x256x256 1 := cmpf .olt main_v4 main_v5
  let main_c_1 : IVec S_ 1 := constantI S_ 1 1#1
  let main_v7 : IVec S_ 1 := (fun x v => Host.reduce IntOp.andi x v reducesTo_S32x256x256_S_d0_1_2 h_S_) main_v6 main_c_1
  let main_v8 : IVec S_ 1 := andi main_v3 main_v7
  let main_v9 : FVec F S32x256 .f32 := Host.absf main_arg3
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 32 := constantI S_ 32 32#32
  fn_part1 (F := F) main_arg1 main_v13 main_v15 main_c_5
-- ==== Kernel.lean ====
abbrev S64x2048x256 : Shape := ⟨3, ![64, 2048, 256]⟩
abbrev S64 : Shape := ⟨1, ![64]⟩
abbrev S32x256x256 : Shape := ⟨3, ![32, 256, 256]⟩
abbrev S32x256 : Shape := ⟨2, ![32, 256]⟩
abbrev S_ : Shape := ⟨0, ![]⟩
abbrev S32x1x256 : Shape := ⟨3, ![32, 1, 256]⟩
abbrev S1x2048x256 : Shape := ⟨3, ![1, 2048, 256]⟩
abbrev S1 : Shape := ⟨1, ![1]⟩
abbrev S2048x256 : Shape := ⟨2, ![2048, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 13
  | .vmem => 6
  | .smem => 1
  | _ => 0

abbrev bufTy : (tb : Table) → Fin (tcTables nBuf tb) → BufTy
  | .hbm, ⟨0, _⟩ => ⟨S64x2048x256, .f32⟩
  | .hbm, ⟨1, _⟩ => ⟨S64, .i32⟩
  | .hbm, ⟨2, _⟩ => ⟨S32x256x256, .f32⟩
  | .hbm, ⟨3, _⟩ => ⟨S32x256, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S32x1x256, .f32⟩
  | .hbm, ⟨12, _⟩ => ⟨S64x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S32x256x256, .f32⟩
  | .local _ .vmem, ⟨3, _⟩ => ⟨S32x1x256, .f32⟩
  | .local _ .vmem, ⟨4, _⟩ => ⟨S1x2048x256, .f32⟩
  | .local _ .vmem, ⟨5, _⟩ => ⟨S1x2048x256, .f32⟩
  | .local _ .smem, ⟨0, _⟩ => ⟨S64, .i32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v4 : Index := Scalar.indexCast v1
  let c0_2 : Index := 0#32
  let c0_3 : Index := 0#32
  ![v4.toNat, 0, 0]

def k0_off3 (v1 : BitVec 32) : Fin 3 → Nat :=
  let v8 : Index := Scalar.indexCast v1
  let c0_4 : Index := 0#32
  let c0_5 : Index := 0#32
  ![v8.toNat, 0, 0]

def k0_chk1 (v1 : BitVec 32) : Prop :=
  (∀ a, (k0_off2 v1) a + S1x256x256.size a ≤ S32x256x256.size a) ∧
  (∀ a, (k0_off3 v1) a + S1x1x256.size a ≤ S32x1x256.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x256x256.size a ≤ S32x256x256.size a := fun v1 k0_hw1 => k0_hw1.1
theorem k0_off3_inb : ∀ (v1 : BitVec 32) (k0_hw1 : k0_chk1 v1), ∀ a, (k0_off3 v1) a + S1x1x256.size a ≤ S32x1x256.size a := fun v1 k0_hw1 => k0_hw1.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  shapeCasts_S32x256_S32x1x256 : S32x256.ShapeCasts S32x1x256
  numel1_S1 : S1.numel = 1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  h_S1x256x256 : 0 < S1x256x256.numel
  shapeCasts_S1x256x256_S256x256 : S1x256x256.ShapeCasts S256x256
  bitsLt_bf16_f32 : FTy.bits .bf16 < FTy.bits .f32
  h_S1x1x256 : 0 < S1x1x256.numel
  shapeCasts_S1x1x256_S1x256 : S1x1x256.ShapeCasts S1x256
  broadcasts_S1x256_S2048x256 : S1x256.Broadcasts S2048x256
  shapeCasts_S2048x256_S1x2048x256 : S2048x256.ShapeCasts S1x2048x256
  dot_S2048x256_S256x256_S2048x256_1_0_0_1_n_n_wf : DotDims.WF S2048x256 S256x256 S2048x256 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S64x2048x256.size a
  hwx0_0 : ∀ i : grid0.Coords, EltTy.bits .f32 = 32 ∨ (Rect.block (s := S64x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256x256.size a ≤ S32x256x256.size a
  hwx0_1 : ∀ i : grid0.Coords, EltTy.bits .f32 = 32 ∨ (Rect.block (s := S32x256x256) S32x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1x256.size a ≤ S32x1x256.size a
  hwx0_2 : ∀ i : grid0.Coords, EltTy.bits .f32 = 32 ∨ (Rect.block (s := S32x1x256) S32x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S64x2048x256.size a
  hwx0_3 : ∀ i : grid0.Coords, EltTy.bits .f32 = 32 ∨ (Rect.block (s := S64x2048x256) S1x2048x256.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev spec0_0 : Pipeline.WinSpec sig grid0.rank :=
  Pipeline.WinSpec.ofSpec (Memref.whole main_arg0) S1x2048x256.size reads0_0 false false 2 stage0_0 sem0_0 nbuf0_0 hstage0_0

abbrev spec0_1 : Pipeline.WinSpec sig grid0.rank :=
  Pipeline.WinSpec.ofSpec (Memref.whole main_arg2) S32x256x256.size reads0_1 false true 1 stage0_1 sem0_1 nbuf0_1 hstage0_1

abbrev spec0_2 : Pipeline.WinSpec sig grid0.rank :=
  Pipeline.WinSpec.ofSpec (Memref.whole main_v1) S32x1x256.size reads0_2 false true 1 stage0_2 sem0_2 nbuf0_2 hstage0_2

abbrev spec0_3 : Pipeline.WinSpec sig grid0.rank :=
  Pipeline.WinSpec.ofSpec (Memref.whole main_v2) S1x2048x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x2048x256 : Shape := ⟨3, ![64, 2048, 256]⟩
abbrev S64 : Shape := ⟨1, ![64]⟩
abbrev S32x256x256 : Shape := ⟨3, ![32, 256, 256]⟩
abbrev S32x256 : Shape := ⟨2, ![32, 256]⟩
abbrev S_ : Shape := ⟨0, ![]⟩
abbrev S64x1 : Shape := ⟨2, ![64, 1]⟩
abbrev S64x256x256 : Shape := ⟨3, ![64, 256, 256]⟩
abbrev S64x256 : Shape := ⟨2, ![64, 256]⟩
abbrev S64x1x256 : Shape := ⟨3, ![64, 1, 256]⟩

abbrev nBuf : Space → Nat
  | .hbm => 26
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64, .i32⟩
  | .hbm, ⟨2, _⟩ => ⟨S32x256x256, .f32⟩
  | .hbm, ⟨3, _⟩ => ⟨S32x256, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x256x256, .f32⟩
  | .hbm, ⟨13, _⟩ => ⟨S64x2048x256, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S64x256, .f32⟩
  | .hbm, ⟨23, _⟩ => ⟨S64x1x256, .f32⟩
  | .hbm, ⟨24, _⟩ => ⟨S64x2048x256, .f32⟩
  | .hbm, ⟨25, _⟩ => ⟨S64x2048x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x256_S64x1x256_0_2 : S64x256.BroadcastsInDim S64x1x256 (![0, 2] : Fin 2 → Fin S64x1x256.rank)
  bcast_S64x1x256_S64x2048x256_0_1_2 : S64x1x256.BroadcastsInDim S64x2048x256 (![0, 1, 2] : Fin 3 → Fin S64x2048x256.rank)
  gather_S32x256x256_S64x1_S64x256x256_12_0_n_n_0_1_1256256_wf : GatherDims.WF S32x256x256 S64x1 S64x256x256 [1, 2] [0] [] [0] [] 1 ![1, 256, 256]
  dot_S64x2048x256_S64x256x256_S64x2048x256_2_1_1_2_0_0_wf : DotDims.WF S64x2048x256 S64x256x256 S64x2048x256 [2] [1] [1] [2] [0] [0]
  gather_S32x256_S64x1_S64x256_1_0_n_n_0_1_1256_wf : GatherDims.WF S32x256 S64x1 S64x256 [1] [0] [] [0] [] 1 ![1, 256]

variable [Facts₀]

def gather_S32x256x256_S64x1_S64x256x256_12_0_n_n_0_1_1256256 : GatherDims S32x256x256 S64x1 S64x256x256 where
  offsetDims := [1, 2]
  collapsedSliceDims := [0]
  operandBatchingDims := []
  startIndicesBatchingDims := []
  startIndexMap := [0]
  indexVectorDim := 1
  sliceSizes := ![1, 256, 256]
  wf := gather_S32x256x256_S64x1_S64x256x256_12_0_n_n_0_1_1256256_wf
def dot_S64x2048x256_S64x256x256_S64x2048x256_2_1_1_2_0_0 : DotDims S64x2048x256 S64x256x256 S64x2048x256 where
  lhsContracting := [2]
  rhsContracting := [1]
  lhsNonContracting := [1]
  rhsNonContracting := [2]
  lhsBatch := [0]
  rhsBatch := [0]
  wf := dot_S64x2048x256_S64x256x256_S64x2048x256_2_1_1_2_0_0_wf
def gather_S32x256_S64x1_S64x256_1_0_n_n_0_1_1256 : GatherDims S32x256 S64x1 S64x256 where
  offsetDims := [1]
  collapsedSliceDims := [0]
  operandBatchingDims := []
  startIndicesBatchingDims := []
  startIndexMap := [0]
  indexVectorDim := 1
  sliceSizes := ![1, 256]
  wf := gather_S32x256_S64x1_S64x256_1_0_n_n_0_1_1256_wf

class Facts : Prop extends Facts₀ where

variable [Facts]
-- ==== Proof.SubjectWord.lean ====
/-
  Subject ids as 32-bit words. A subject id selects one of 32 weight matrices and bias rows, and the precondition
  says every id passes the two signed comparisons `0 ≤ id` and `id < 32`. For such a word the unsigned value is
  below 32, the signed and unsigned readings agree, the clamp into [0, 31] returns the word itself, and the
  "add 32 when negative" wrap of a Python-style index leaves it alone. These four facts are everything the
  two programs' index arithmetic needs.
-/
import Idealize.ShloMosaic.Lib.StableHlo.Predicate

namespace Cert.Proof.SubjectWord

open Idealize.ShloMosaic Idealize.ShloMosaic.StableHlo.Predicate

/-- A word with `0 ≤ w` and `w < 32` as signed integers has unsigned value below 32: a set sign bit would make
    the signed value negative. -/
theorem toNat_lt_of_cmp (w : BitVec 32) (h0 : IntOp.cmpi .sge w 0#32 = 1#1) (h1 : IntOp.cmpi .slt w 32#32 = 1#1) :
    w.toNat < 32 := by
  unfold IntOp.cmpi at h0 h1
  simp only [ofBool_eq_one_iff, BitVec.sle, BitVec.slt, decide_eq_true_eq] at h0 h1
  have e0 : (0#32 : BitVec 32).toInt = 0 := by decide
  have e32 : (32#32 : BitVec 32).toInt = 32 := by decide
  rw [e0] at h0
  rw [e32] at h1
  have hlt := w.isLt
  rw [BitVec.toInt_eq_toNat_cond] at h0 h1
  split at h0 <;> omega

/-- Below 32 the signed reading is the unsigned one. -/
theorem toInt_eq (w : BitVec 32) (hw : w.toNat < 32) : w.toInt = w.toNat :=
  toInt_eq_toNat_of_lt (by omega)

theorem toInt_toNat (w : BitVec 32) (hw : w.toNat < 32) : w.toInt.toNat = w.toNat := by
  rw [toInt_eq w hw]; exact Int.toNat_natCast _

/-- The clamp `min 31 (max 0 w)` of a word already in [0, 31] is the word. -/
theorem clip_eq (w : BitVec 32) (hw : w.toNat < 32) : IntOp.minsi 31#32 (IntOp.maxsi 0#32 w) = w := by
  have hi := toInt_eq w hw
  have e0 : (0#32 : BitVec 32).toInt = 0 := by decide
  have e31 : (31#32 : BitVec 32).toInt = 31 := by decide
  have hmax : IntOp.maxsi 0#32 w = w := by
    unfold IntOp.maxsi
    rw [if_neg]
    simp only [BitVec.slt, hi, e0, decide_eq_true_eq]; omega
  rw [hmax]
  unfold IntOp.minsi
  rw [if_neg]
  simp only [BitVec.slt, hi, e31, decide_eq_true_eq]; omega

/-- The wrap of a negative index, `w < 0 ? w + 32 : w`, is not taken for a word in [0, 31]. -/
theorem wrap_eq (w : BitVec 32) (hw : w.toNat < 32) :
    Scalar.select (IntOp.cmpi .slt w 0#32) (IntOp.addi w 32#32) w = w := by
  have hi := toInt_eq w hw
  have e0 : (0#32 : BitVec 32).toInt = 0 := by decide
  have hs : w.slt 0#32 = false := by
    simp only [BitVec.slt, hi, e0]
    exact decide_eq_false (by omega)
  have hc : IntOp.cmpi .slt w 0#32 = 0#1 := by
    show BitVec.ofBool (w.slt 0#32) = 0#1
    rw [hs]; rfl
  rw [hc]
  exact if_neg (by decide)

end Cert.Proof.SubjectWord
-- ==== Proof.SubjectRange.lean ====
/-
  The precondition, read at one subject id. The printed precondition is a conjunction of four `all` reductions; the
  last says that every entry of the id vector passes `0 ≤ id` and `id < 32` (signed). A conjunction of bits that is 1
  has both bits 1, and an `and`-reduction that is 1 met only 1s, so each entry passes both comparisons and is
  therefore below 32 as an unsigned number. The float conjuncts are not needed: the equivalence of the two
  programs is an identity of sums and products that holds on all extended reals.
-/
import proofs.«426805_j72215580115411_3_alg».proof.Pre_finite_inputs
import proofs.«426805_j72215580115411_3_alg».proof.Proof.Gen.Pre_finite_inputs
import proofs.«426805_j72215580115411_3_alg».proof.Proof.SubjectWord
import Idealize.ShloMosaic.Lib.ReduceAll
import Idealize.ShloMosaic.Lib.ValueIdx

namespace Cert.Proof.SubjectRange

open Idealize.ShloMosaic Idealize.ShloMosaic.ValueIdx Cert.Pre_finite_inputs

variable {F : FTy → Type} [FloatOps F]

/-- The scalar shape has one index. -/
instance : Subsingleton S_.Idx := ⟨fun a b => funext fun d => d.elim0⟩

/-- Under the precondition every subject id is below 32. -/
theorem ids_lt (x : FVec F S64x2048x256 .f32) (sid : IVec S64 32) (W : FVec F S32x256x256 .f32) (b : FVec F S32x256 .f32)
    (h : fn (F := F) x sid W b = fun _ => 1#1) (i : S64.Idx) : (sid i).toNat < 32 := by
  have e := congrFun h ix0
  unfold fn at e
  dsimp only [fn_part1] at e
  obtain ⟨-, e2⟩ := IntOp.andi_eq_one.1 e
  have e3 := Host.reduce_andi_all _ _ _ _ _ e2 i
  obtain ⟨h0, h1⟩ := IntOp.andi_eq_one.1 e3
  exact SubjectWord.toNat_lt_of_cmp _ h0 h1

end Cert.Proof.SubjectRange
-- ==== Proof.KernelWords.lean ====
/-
  The subject words the kernel reads. Before the launch the host clamps every subject id into [0, 31] and hands the
  clamped vector to the kernel as a table in scalar memory; at grid point `t` the body reads entry `t` of that table
  and uses it as the leading offset of a [1, 256, 256] load from the resident weight table and of a [1, 1, 256] load
  from the resident bias table. The body assumes those two loads fit, which they do as soon as the word is below 32.
  When the ids are in range the clamp is the identity, so the word read at point `t` is the id of sample `t` itself.
-/
import proofs.«426805_j72215580115411_3_alg».proof.Proof.Gen.KernelIdeal.Frame
import proofs.«426805_j72215580115411_3_alg».proof.Proof.SubjectWord
import Idealize.ShloMosaic.Lib.StableHlo.Run
import Idealize.ShloMosaic.Lib.ValueIdx

set_option maxRecDepth 16384

noncomputable section

namespace Cert.KernelIdeal.Words

open Cert.KernelIdeal Cert.KernelIdeal.Gen
open Idealize.ShloMosaic Idealize.ShloMosaic.TcCoe Idealize.SL.Sem Idealize.ShloMosaic.ValueIdx
open Cert.Proof

variable {F : FTy → Type} [FloatOps F]
variable (m : (ℓ : Loc nD τ sig) → Buf (Elt F) ℓ)

/-- The id vector as launched (the program runs on one device). -/
abbrev ids : S64.Idx → BitVec 32 := m (((0 : Dev nD) : Thread nD τ).loc main_arg1)

/-- The table the region finds: the ids clamped below by 0, then above by 31. -/
theorem tbl_eq : (tbl m 0 : S64.Idx → BitVec 32) =
    minsi (broadcastInDim S64 ![] bcast_S_S64 (constantI S_ 32 31#32))
      (maxsi (broadcastInDim S64 ![] bcast_S_S64 (constantI S_ 32 0#32)) (ids m)) := by
  unfold tbl
  show V m 0 main_v0 = _
  dsimp only [V]
  simp only [hostOps0, hostOps0_1, hostOps0_2, List.flatten_cons, List.flatten_nil, List.append_nil, List.cons_append,
    List.nil_append]
  after_results
  rfl

/-- Entry `i` of the table is the clamp of id `i`. -/
theorem tbl_apply (i : S64.Idx) : tbl m 0 i = IntOp.minsi 31#32 (IntOp.maxsi 0#32 (ids m i)) := by
  rw [tbl_eq]
  rfl

/-- The grid has one axis of 64 points: point `t` has coordinate `t`. -/
theorem coords_val : ∀ t : Fin grid0.N, (grid0.coords t 0).val = t.val := by decide +kernel

/-- Sample `t`, as an index of the id vector. -/
abbrev sample (t : Fin grid0.N) : S64.Idx := ix1 ⟨t.val, by have := t.isLt; have := N_0; omega⟩

/-- The offset of the body's scalar load at point `t` is `t`. -/
theorem off1 (t : Fin grid0.N) : k0_off1 (grid0.coords t) 0 = t.val := by
  show (Scalar.indexCast (BitVec.ofNat 32 (grid0.coords t 0).val)).toNat = t.val
  rw [coords_val t]
  show (BitVec.ofNat 32 t.val).toNat = _
  have h := t.isLt
  have hN : grid0.N = 64 := N_0
  rw [BitVec.toNat_ofNat]
  exact Nat.mod_eq_of_lt (by omega)

/-- The word the body loads at point `t` from table contents `f` is entry `t`. -/
theorem word_at (f : S64.Idx → BitVec 32) (t : Fin grid0.N) (h1 : 0 < S1.numel) :
    tbM0_0.view.readAt (Elt F) (Rect.unit (s := S64) (k0_off1 (grid0.coords t)) S1.size (k0_off1_inb (grid0.coords t))).toLoadRect f
        (Shape.Idx.first h1)
      = f (sample t) := by
  refine congrArg f ?_
  funext a
  apply Fin.ext
  match a with
  | ⟨0, _⟩ =>
    show k0_off1 (grid0.coords t) 0 + 1 * (Shape.Idx.first h1 (0 : Fin 1)).val = t.val
    rw [off1 t]
    show t.val + 1 * 0 = t.val
    omega

/-- With ids in range, the word at point `t` is the id of sample `t`. -/
theorem word_eq (hs : ∀ i, (ids m i).toNat < 32) (t : Fin grid0.N) (h1 : 0 < S1.numel) :
    tbM0_0.view.readAt (Elt F) (Rect.unit (s := S64) (k0_off1 (grid0.coords t)) S1.size (k0_off1_inb (grid0.coords t))).toLoadRect (tbl m 0)
        (Shape.Idx.first h1)
      = ids m (sample t) := by
  rw [word_at (tbl m 0) t h1, tbl_apply, SubjectWord.clip_eq _ (hs _)]

/-- A word below 32 names a matrix of the weight table and a row of the bias table: both loads fit. -/
theorem chk_of_lt (w : BitVec 32) (hw : w.toNat < 32) : k0_chk1 w := by
  have e : (Scalar.indexCast w).toNat = w.toNat := rfl
  refine ⟨fun a => ?_, fun a => ?_⟩
  · match a with
    | ⟨0, _⟩ => show (Scalar.indexCast w).toNat + 1 ≤ 32; omega
    | ⟨1, _⟩ => show 0 + 256 ≤ 256; omega
    | ⟨2, _⟩ => show 0 + 256 ≤ 256; omega
  · match a with
    | ⟨0, _⟩ => show (Scalar.indexCast w).toNat + 1 ≤ 32; omega
    | ⟨1, _⟩ => show 0 + 1 ≤ 1; omega
    | ⟨2, _⟩ => show 0 + 256 ≤ 256; omega

/-- The pipeline's own side condition asks nothing: no index map reads the table. -/
theorem ok : Ok m := trivial

/-- What the body assumes of the words it reads holds at every point, once the ids are in range. -/
theorem hyps_of_lt (hs : ∀ i, (ids m i).toNat < 32) : Hyps m (ok m) :=
  Hyps.of fun c t => by
    show k0_chk1 _
    rw [word_eq m hs t]
    exact chk_of_lt _ (hs _)

end Cert.KernelIdeal.Words

end
-- ==== Proof.KernelWordsBits.lean ====
/-
  The subject words the kernel reads. Before the launch the host clamps every subject id into [0, 31] and hands the
  clamped vector to the kernel as a table in scalar memory; at grid point `t` the body reads entry `t` of that table
  and uses it as the leading offset of a [1, 256, 256] load from the resident weight table and of a [1, 1, 256] load
  from the resident bias table. The body assumes those two loads fit, which they do as soon as the word is below 32.
  When the ids are in range the clamp is the identity, so the word read at point `t` is the id of sample `t` itself.
-/
import proofs.«426805_j72215580115411_3_alg».proof.Proof.Gen.Kernel.Frame
import proofs.«426805_j72215580115411_3_alg».proof.Proof.SubjectWord
import Idealize.ShloMosaic.Lib.StableHlo.Run
import Idealize.ShloMosaic.Lib.ValueIdx

set_option maxRecDepth 16384

noncomputable section

namespace Cert.Kernel.Words

open Cert.Kernel Cert.Kernel.Gen
open Idealize.ShloMosaic Idealize.ShloMosaic.TcCoe Idealize.SL.Sem Idealize.ShloMosaic.ValueIdx
open Cert.Proof

variable {F : FTy → Type} [FloatOps F]
variable (m : (ℓ : Loc nD τ sig) → Buf (Elt F) ℓ)

/-- The id vector as launched (the program runs on one device). -/
abbrev ids : S64.Idx → BitVec 32 := m (((0 : Dev nD) : Thread nD τ).loc main_arg1)

/-- The table the region finds: the ids clamped below by 0, then above by 31. -/
theorem tbl_eq : (tbl m 0 : S64.Idx → BitVec 32) =
    minsi (broadcastInDim S64 ![] bcast_S_S64 (constantI S_ 32 31#32))
      (maxsi (broadcastInDim S64 ![] bcast_S_S64 (constantI S_ 32 0#32)) (ids m)) := by
  unfold tbl
  show V m 0 main_v0 = _
  dsimp only [V]
  simp only [hostOps0, hostOps0_1, hostOps0_2, List.flatten_cons, List.flatten_nil, List.append_nil, List.cons_append,
    List.nil_append]
  after_results
  rfl

/-- Entry `i` of the table is the clamp of id `i`. -/
theorem tbl_apply (i : S64.Idx) : tbl m 0 i = IntOp.minsi 31#32 (IntOp.maxsi 0#32 (ids m i)) := by
  rw [tbl_eq]
  rfl

/-- The grid has one axis of 64 points: point `t` has coordinate `t`. -/
theorem coords_val : ∀ t : Fin grid0.N, (grid0.coords t 0).val = t.val := by decide +kernel

/-- Sample `t`, as an index of the id vector. -/
abbrev sample (t : Fin grid0.N) : S64.Idx := ix1 ⟨t.val, by have := t.isLt; have := N_0; omega⟩

/-- The offset of the body's scalar load at point `t` is `t`. -/
theorem off1 (t : Fin grid0.N) : k0_off1 (grid0.coords t) 0 = t.val := by
  show (Scalar.indexCast (BitVec.ofNat 32 (grid0.coords t 0).val)).toNat = t.val
  rw [coords_val t]
  show (BitVec.ofNat 32 t.val).toNat = _
  have h := t.isLt
  have hN : grid0.N = 64 := N_0
  rw [BitVec.toNat_ofNat]
  exact Nat.mod_eq_of_lt (by omega)

/-- The word the body loads at point `t` from table contents `f` is entry `t`. -/
theorem word_at (f : S64.Idx → BitVec 32) (t : Fin grid0.N) (h1 : 0 < S1.numel) :
    tbM0_0.view.readAt (Elt F) (Rect.unit (s := S64) (k0_off1 (grid0.coords t)) S1.size (k0_off1_inb (grid0.coords t))).toLoadRect f
        (Shape.Idx.first h1)
      = f (sample t) := by
  refine congrArg f ?_
  funext a
  apply Fin.ext
  match a with
  | ⟨0, _⟩ =>
    show k0_off1 (grid0.coords t) 0 + 1 * (Shape.Idx.first h1 (0 : Fin 1)).val = t.val
    rw [off1 t]
    show t.val + 1 * 0 = t.val
    omega

/-- With ids in range, the word at point `t` is the id of sample `t`. -/
theorem word_eq (hs : ∀ i, (ids m i).toNat < 32) (t : Fin grid0.N) (h1 : 0 < S1.numel) :
    tbM0_0.view.readAt (Elt F) (Rect.unit (s := S64) (k0_off1 (grid0.coords t)) S1.size (k0_off1_inb (grid0.coords t))).toLoadRect (tbl m 0)
        (Shape.Idx.first h1)
      = ids m (sample t) := by
  rw [word_at (tbl m 0) t h1, tbl_apply, SubjectWord.clip_eq _ (hs _)]

/-- A word below 32 names a matrix of the weight table and a row of the bias table: both loads fit. -/
theorem chk_of_lt (w : BitVec 32) (hw : w.toNat < 32) : k0_chk1 w := by
  have e : (Scalar.indexCast w).toNat = w.toNat := rfl
  refine ⟨fun a => ?_, fun a => ?_⟩
  · match a with
    | ⟨0, _⟩ => show (Scalar.indexCast w).toNat + 1 ≤ 32; omega
    | ⟨1, _⟩ => show 0 + 256 ≤ 256; omega
    | ⟨2, _⟩ => show 0 + 256 ≤ 256; omega
  · match a with
    | ⟨0, _⟩ => show (Scalar.indexCast w).toNat + 1 ≤ 32; omega
    | ⟨1, _⟩ => show 0 + 1 ≤ 1; omega
    | ⟨2, _⟩ => show 0 + 256 ≤ 256; omega

/-- The pipeline's own side condition asks nothing: no index map reads the table. -/
theorem ok : Ok m := trivial

/-- What the body assumes of the words it reads holds at every point, once the ids are in range. -/
theorem hyps_of_lt (hs : ∀ i, (ids m i).toNat < 32) : Hyps m (ok m) :=
  Hyps.of fun c t => by
    show k0_chk1 _
    rw [word_eq m hs t]
    exact chk_of_lt _ (hs _)

end Cert.Kernel.Words

end
-- ==== Proof.KernelPayload.lean ====
/-
  What one grid point stores, as arithmetic. The body turns its [1, 2048, 256] activation block into a [2048, 256]
  matrix, the loaded [1, 256, 256] weight slab into a [256, 256] matrix, multiplies them into a zero accumulator, adds
  the loaded [1, 1, 256] bias row to every row of the product, and stores the sum back as a [1, 2048, 256] block. Read
  on the extended reals (where narrowing to bf16 is the identity and the product into zero is the plain sum over the
  one contracted coordinate), entry (r, o) of the stored block is
      (∑ k, x[0, r, k] · w[0, k, o]) + bias[0, 0, o].
-/
import proofs.«426805_j72215580115411_3_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Payload

open Cert.KernelIdeal Cert.KernelIdeal.Gen
open Idealize.ShloMosaic Idealize.ShloMosaic.ValueIdx

/-- The matrix product's dimension numbers: rows × (one contracted axis) times (that axis) × columns. -/
abbrev D := dot_S2048x256_S256x256_S2048x256_1_0_0_1_n_n

/-- The left operand is read at (row of the output, contracted coordinate), -/
theorem lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- and the right operand at (contracted coordinate, column of the output). -/
theorem rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product into the zero accumulator at (r, o): the sum over k of left (r, k) times right (k, o). -/
theorem matmul_zero_apply (L : FVec Ideal S2048x256 .bf16) (R : FVec Ideal S256x256 .bf16) (r : Fin 2048) (o : Fin 256) :
    matmul (F := Ideal) D none L R (constant (F := Ideal) S2048x256 .f32 0x00000000#32) (ix2 r o)
      = ∑ k : Fin 256, L (ix2 r k) * R (ix2 k o) := by
  refine (Ideal.matmul_constant_zero_apply D none L R (ix2 r o)).trans ?_
  rw [← Equiv.sum_comp (contrEquiv1 D 256 rfl rfl).symm]
  refine Finset.sum_congr rfl fun k _ => ?_
  have hk := contrEquiv1_symm_val D 256 rfl rfl k
  have el : D.lhsIdx (ix2 r o) ((contrEquiv1 D 256 rfl rfl).symm k) = ix2 r k := funext fun a => Fin.ext (by
    match a with
    | ⟨0, _⟩ => exact lhs_0 _ _
    | ⟨1, _⟩ => exact (lhs_1 _ _).trans hk)
  have er : D.rhsIdx (ix2 r o) ((contrEquiv1 D 256 rfl rfl).symm k) = ix2 k o := funext fun a => Fin.ext (by
    match a with
    | ⟨0, _⟩ => exact (rhs_0 _ _).trans hk
    | ⟨1, _⟩ => exact rhs_1 _ _)
  rw [el, er]

/-- THE STORED BLOCK at (·, r, o): the row of the activation block against the column of the weight slab, plus the
    bias row's entry at o. -/
theorem pay_apply (x : FVec Ideal S1x2048x256 .f32) (w : FVec Ideal S1x256x256 .f32) (bias : FVec Ideal S1x1x256 .f32)
    (u : Fin 1) (r : Fin 2048) (o : Fin 256) :
    k0_pay1 (F := Ideal) x w bias (ix3 u r o)
      = (∑ k : Fin 256, x (ix3 (0 : Fin 1) r k) * w (ix3 (0 : Fin 1) k o)) + bias (ix3 (0 : Fin 1) (0 : Fin 1) o) := by
  unfold k0_pay1
  refine (shapeCast_ab_1ab_apply _ _ u r o).trans ?_
  refine congrArg₂ (· + ·) ?_ ?_
  · refine (matmul_zero_apply _ _ r o).trans (Finset.sum_congr rfl fun k _ => ?_)
    refine congrArg₂ (· * ·) ?_ ?_
    · exact shapeCast_1ab_ab_apply x _ r k
    · exact shapeCast_1ab_ab_apply w _ k o
  · exact (broadcastTo_1b_ab_apply _ _ r o).trans (shapeCast_1ab_ab_apply bias _ (0 : Fin 1) o)

end Cert.KernelIdeal.Payload

end
-- ==== Proof.SubjectAffine.lean ====
/-
  What both programs compute. For a batch of 64 samples, sample `b` carries a [2048, 256] activation block `x b` and
  a subject id `s b`; a table holds one [256, 256] weight matrix and one [256] bias row per subject. The result is
      y[b, t, o] = (∑ k, x[b, t, k] · W[s b, k, o]) + bias[s b, o]
  over the extended reals: a per-sample affine map whose matrix and offset are looked up by the sample's subject.
  The id is a 32-bit word; `row` reads it as a table row, clamped into the table (a no-op on ids in range).
-/
import Idealize.ShloMosaic.Lib.ValueIdx
import Idealize.ShloMosaic.PureOps.Ideal

noncomputable section

open scoped BigOperators

namespace Cert.Proof.SubjectAffine

open Idealize.ShloMosaic Idealize.ShloMosaic.ValueIdx

abbrev SAct : Shape := ⟨3, ![64, 2048, 256]⟩
abbrev SIds : Shape := ⟨1, ![64]⟩
abbrev SWts : Shape := ⟨3, ![32, 256, 256]⟩
abbrev SBias : Shape := ⟨2, ![32, 256]⟩

/-- The table row a subject word names: its unsigned value, held inside the 32-row table. -/
def row (w : BitVec 32) : Fin 32 := ⟨min w.toNat 31, Nat.lt_succ_of_le (Nat.min_le_right _ _)⟩

/-- For an id in range the row is the id. -/
theorem row_val (w : BitVec 32) (hw : w.toNat < 32) : (row w).val = w.toNat := by
  show min w.toNat 31 = w.toNat
  omega

/-- The per-sample affine map with subject-selected matrix and offset. -/
def affine (x : FVec Ideal SAct .f32) (s : IVec SIds 32) (W : FVec Ideal SWts .f32) (bias : FVec Ideal SBias .f32) :
    FVec Ideal SAct .f32 :=
  fun j => (∑ k : Fin 256, x (ix3 (j 0) (j 1) k) * W (ix3 (row (s (ix1 (j 0)))) k (j 2))) + bias (ix2 (row (s (ix1 (j 0)))) (j 2))

theorem affine_apply (x : FVec Ideal SAct .f32) (s : IVec SIds 32) (W : FVec Ideal SWts .f32) (bias : FVec Ideal SBias .f32)
    (b : Fin 64) (t : Fin 2048) (o : Fin 256) :
    affine x s W bias (ix3 b t o)
      = (∑ k : Fin 256, x (ix3 b t k) * W (ix3 (row (s (ix1 b))) k o)) + bias (ix2 (row (s (ix1 b))) o) := rfl

end Cert.Proof.SubjectAffine

end
-- ==== Proof.KernelBlocks.lean ====
/-
  The kernel's result array. The launch has 64 grid points; point `t` is handed block `t` of the activations (all of
  sample `t`), the whole weight table and the whole bias table (the bias as a [32, 1, 256] array, one unit axis
  inserted by the host), and leaves block `t` of the output. With `s` the subject word it reads, the point stores
      out[t, r, o] = (∑ k, x[t, r, k] · W[s, k, o]) + bias[s, o],
  and with ids in range `s` is the id of sample `t`, so the stored block is block `t` of the subject-selected affine map
  of the four argument arrays. The 64 output blocks tile the output array (block `t` is the slab with leading
  coordinate `t`), hence the array ends holding that map everywhere.
-/
import proofs.«426805_j72215580115411_3_alg».proof.Proof.Gen.KernelIdeal.Frame
import proofs.«426805_j72215580115411_3_alg».proof.Proof.KernelWords
import proofs.«426805_j72215580115411_3_alg».proof.Proof.KernelPayload
import proofs.«426805_j72215580115411_3_alg».proof.Proof.SubjectAffine
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Blocks

open Cert.KernelIdeal Cert.KernelIdeal.Gen Cert.KernelIdeal.Words Cert.KernelIdeal.Payload
open Idealize.ShloMosaic Idealize.ShloMosaic.TcCoe Idealize.SL.Sem Idealize.ShloMosaic.ValueIdx Idealize.ShloMosaic.Tactic
open Idealize.ShloMosaic.Pipeline (Dat)
open Cert.Proof Cert.Proof.SubjectAffine

variable {F : FTy → Type} [FloatOps F]

/-! ## What the body leaves in its output block, for any staging buffers and contents -/

theorem zero3 : (![0, 0, 0] : Fin 3 → Nat) = fun _ => 0 := funext fun a => by fin_cases a <;> rfl

/-- The subject word the body reads at coordinates `i` from table contents `tb`. -/
abbrev wordAt (c : Dev nD) (i : grid0.Coords) (tb : TbBuf0 (F := F) c tbM0_0) : BitVec 32 :=
  tbM0_0.view.readAt (Elt F) (Rect.unit (s := S64) (k0_off1 i) S1.size (k0_off1_inb i)).toLoadRect tb
    (Shape.Idx.first (numel1_S1.symm ▸ Nat.one_pos))

/-- The body makes one store, of the whole output block: its payload over the activation block, the weight slab
    loaded at the word's offset and the bias row loaded at the word's offset. -/
theorem out_piece (c : Dev nD) (i : grid0.Coords) (arg2 : Memref sig .tc .vmem S1x2048x256 .f32) (harg2 : arg2.IsWhole)
    (arg3 : Memref sig .tc .vmem S32x256x256 .f32) (harg3 : arg3.IsWhole) (arg4 : Memref sig .tc .vmem S32x1x256 .f32)
    (harg4 : arg4.IsWhole) (arg5 : Memref sig .tc .vmem S1x2048x256 .f32) (harg5 : arg5.IsWhole)
    (x0 : Vec F S1x2048x256 .f32) (x1 : Vec F S32x256x256 .f32) (x2 : Vec F S32x1x256 .f32) (tb : TbBuf0 (F := F) c tbM0_0)
    (k0_hw1 : k0_chk1 (wordAt c i tb)) :
    out0_A_3 c i arg2 harg2 arg3 harg3 arg4 harg4 arg5 harg5 x0 x1 x2 tb k0_hw1
      = k0_pay1 x0
          (View.ld x1 (Rect.unit (s := S32x256x256) (k0_off2 (wordAt c i tb)) S1x256x256.size (k0_off2_inb _ k0_hw1)))
          (View.ld x2 (Rect.unit (s := S32x1x256) (k0_off3 (wordAt c i tb)) S1x1x256.size (k0_off3_inb _ k0_hw1))) := by
  unfold out0_A_3
  rw [View.read_writes_eq_canon _ _ _ (cover0_A_3 c i arg2 harg2 arg3 harg3 arg4 harg4 arg5 harg5 x0 x1 x2 tb k0_hw1)]
  unfold kernelRun0_A
  dsimp only
  sl_unfold_words
  rw [View.canon_unit_zero zero3]
  simp only [View.readAt_eq_ld, harg2.read_unread, harg3.read_unread, harg4.read_unread,
    View.ld_unit_zero (S := S1x2048x256) zero3]
  rfl

/-- A [1, 256, 256] slab loaded at leading offset `w` is matrix `w` of the table. -/
theorem ld_weights (X : Vec F S32x256x256 .f32) (w : BitVec 32) (hw : w.toNat < 32)
    (inb : ∀ a, (k0_off2 w) a + S1x256x256.size a ≤ S32x256x256.size a) (u : Fin 1) (k o : Fin 256) :
    View.ld X (Rect.unit (s := S32x256x256) (k0_off2 w) S1x256x256.size inb) (ix3 u k o)
      = X (ix3 (⟨w.toNat, hw⟩ : Fin 32) k o) := by
  show X _ = X _
  refine congrArg X ?_
  funext a
  apply Fin.ext
  have hu : u.val = 0 := by omega
  match a with
  | ⟨0, _⟩ => show (Scalar.indexCast w).toNat + 1 * u.val = w.toNat; rw [hu]; show w.toNat + 1 * 0 = w.toNat; omega
  | ⟨1, _⟩ => show 0 + 1 * k.val = k.val; omega
  | ⟨2, _⟩ => show 0 + 1 * o.val = o.val; omega

/-- A [1, 1, 256] row loaded at leading offset `w` is row `w` of the table. -/
theorem ld_bias (X : Vec F S32x1x256 .f32) (w : BitVec 32) (hw : w.toNat < 32)
    (inb : ∀ a, (k0_off3 w) a + S1x1x256.size a ≤ S32x1x256.size a) (u v : Fin 1) (o : Fin 256) :
    View.ld X (Rect.unit (s := S32x1x256) (k0_off3 w) S1x1x256.size inb) (ix3 u v o)
      = X (ix3 (⟨w.toNat, hw⟩ : Fin 32) (0 : Fin 1) o) := by
  show X _ = X _
  refine congrArg X ?_
  funext a
  apply Fin.ext
  have hu : u.val = 0 := by omega
  have hv : v.val = 0 := by omega
  match a with
  | ⟨0, _⟩ => show (Scalar.indexCast w).toNat + 1 * u.val = w.toNat; rw [hu]; show w.toNat + 1 * 0 = w.toNat; omega
  | ⟨1, _⟩ => show 0 + 1 * v.val = 0; omega
  | ⟨2, _⟩ => show 0 + 1 * o.val = o.val; omega

/-! ## The blocks the pipeline hands the body -/

variable (m : (ℓ : Loc nD τ sig) → Buf (Elt F) ℓ)

/-- The block indices over the grid: the activations' and the output's blocks move with the point along the leading
    axis and sit at 0 on the other two. -/
theorem idx_facts : ∀ t : Fin grid0.N,
    cc0_transform_0 (grid0.coords t) 0 = t.val ∧ cc0_transform_0 (grid0.coords t) 1 = 0 ∧ cc0_transform_0 (grid0.coords t) 2 = 0
    ∧ cc0_transform_3 (grid0.coords t) 0 = t.val ∧ cc0_transform_3 (grid0.coords t) 1 = 0 ∧ cc0_transform_3 (grid0.coords t) 2 = 0 :=
  (by decide +kernel : ∀ t : Fin grid0.N, _)

/-- The activation block at point `t` is sample `t`. -/
theorem xblk_apply (hO : Ok m) (c : Dev nD) (t : Fin (cfgM m hO).N) (u : Fin 1) (r : Fin 2048) (k : Fin 256) :
    iblk m hO c 0 t (ix3 u r k)
      = m ((c : Thread nD τ).loc main_arg0)
          (ix3 (⟨t.val, by have := t.isLt; have hN : (cfgM m hO).N = 64 := N_0; omega⟩ : Fin 64) r k) := by
  show V m c main_arg0 ((((cfgM m hO).win 0).blk t).view.emb (ix3 u r k)) = _
  rw [V_main_arg0]
  refine congrArg (m _) ?_
  funext a
  apply Fin.ext
  obtain ⟨e0, e1, e2, -⟩ := idx_facts t
  have hu : u.val = 0 := by omega
  match a with
  | ⟨0, _⟩ => show cc0_transform_0 (grid0.coords t) 0 * 1 + 1 * u.val = t.val; omega
  | ⟨1, _⟩ => show cc0_transform_0 (grid0.coords t) 1 * 2048 + 1 * r.val = r.val; omega
  | ⟨2, _⟩ => show cc0_transform_0 (grid0.coords t) 2 * 256 + 1 * k.val = k.val; omega

/-- The weight block at every point is the whole weight table. -/
theorem wblk_apply (hO : Ok m) (c : Dev nD) (t : Fin (cfgM m hO).N) (s : Fin 32) (k o : Fin 256) :
    iblk m hO c 1 t (ix3 s k o) = m ((c : Thread nD τ).loc main_arg2) (ix3 s k o) := by
  show V m c main_arg2 ((((cfgM m hO).win 1).blk t).view.emb (ix3 s k o)) = _
  rw [V_main_arg2]
  refine congrArg (m _) ?_
  funext a
  apply Fin.ext
  match a with
  | ⟨0, _⟩ => show 0 * 32 + 1 * s.val = s.val; omega
  | ⟨1, _⟩ => show 0 * 256 + 1 * k.val = k.val; omega
  | ⟨2, _⟩ => show 0 * 256 + 1 * o.val = o.val; omega

/-- The bias array the region finds: the bias table with a unit axis inserted in the middle. -/
theorem V_bias (c : Dev nD) : (V m c main_v1 : S32x1x256.Idx → Elt F .f32)
    = shapeCast S32x1x256 (m ((c : Thread nD τ).loc main_arg3)) shapeCasts_S32x256_S32x1x256 := by
  dsimp only [V]
  simp only [hostOps0, hostOps0_1, hostOps0_2, List.flatten_cons, List.flatten_nil, List.append_nil, List.cons_append,
    List.nil_append]
  after_results
  rfl

/-- Inserting the unit axis keeps the row-major position: entry (s, ·, o) is entry (s, o). -/
theorem bias_cast {α : Type} (X : S32x256.Idx → α) (s : Fin 32) (u : Fin 1) (o : Fin 256) :
    shapeCast S32x1x256 X shapeCasts_S32x256_S32x1x256 (ix3 s u o) = X (ix2 s o) :=
  shapeCast_apply X _ _ _ (by
    have hu : u.val = 0 := by omega
    rw [Shape.rowMajor_val_two, Shape.rowMajor_val_three]
    show s.val * 256 + o.val = (s.val * 1 + u.val) * 256 + o.val
    rw [hu]; omega)

/-- The bias block at every point is the whole bias table, read through the inserted unit axis. -/
theorem bblk_apply (hO : Ok m) (c : Dev nD) (t : Fin (cfgM m hO).N) (s : Fin 32) (u : Fin 1) (o : Fin 256) :
    iblk m hO c 2 t (ix3 s u o) = m ((c : Thread nD τ).loc main_arg3) (ix2 s o) := by
  show V m c main_v1 ((((cfgM m hO).win 2).blk t).view.emb (ix3 s u o)) = _
  rw [V_bias, ← bias_cast (m ((c : Thread nD τ).loc main_arg3)) s u o]
  refine congrArg (shapeCast S32x1x256 (m ((c : Thread nD τ).loc main_arg3)) shapeCasts_S32x256_S32x1x256) ?_
  funext a
  apply Fin.ext
  match a with
  | ⟨0, _⟩ => show 0 * 32 + 1 * s.val = s.val; omega
  | ⟨1, _⟩ => show 0 * 1 + 1 * u.val = u.val; omega
  | ⟨2, _⟩ => show 0 * 256 + 1 * o.val = o.val; omega

/-! ## The output, block by block and whole, on the extended reals -/

section AtIdeal

variable (mI : (ℓ : Loc nD τ sig) → Buf (Elt Ideal) ℓ) (ρ : Dev nD → PrngReg)

/-- The subject-selected affine map of the four argument arrays as launched. -/
abbrev result (c : Dev nD) : FVec Ideal S64x2048x256 .f32 :=
  affine (mI ((c : Thread nD τ).loc main_arg0)) (mI ((c : Thread nD τ).loc main_arg1)) (mI ((c : Thread nD τ).loc main_arg2))
    (mI ((c : Thread nD τ).loc main_arg3))

/-- The three input blocks at a point, at their literal shapes. -/
abbrev xb (c : Dev nD) (t : Fin (cfgM mI (ok mI)).N) : FVec Ideal S1x2048x256 .f32 := iblk mI (ok mI) c 0 t
abbrev wb (c : Dev nD) (t : Fin (cfgM mI (ok mI)).N) : FVec Ideal S32x256x256 .f32 := iblk mI (ok mI) c 1 t
abbrev bb (c : Dev nD) (t : Fin (cfgM mI (ok mI)).N) : FVec Ideal S32x1x256 .f32 := iblk mI (ok mI) c 2 t

/-- WHAT POINT `t` LEAVES at (·, r, o) is the affine map at (t, r, o): the word it reads is the id of sample `t`, the
    slab and row it loads are that subject's, and its payload is the row-by-column sum plus the bias entry. -/
theorem block_eq (hs : ∀ i, (ids mI i).toNat < 32) (c : Dev nD) (t : Fin (cfgM mI (ok mI)).N) (u : Fin 1) (r : Fin 2048)
    (o : Fin 256) :
    outsAt0 mI (ok mI) (hyps_of_lt mI hs) c t (ix3 u r o)
      = result mI c (ix3 (⟨t.val, by have := t.isLt; have hN : (cfgM mI (ok mI)).N = 64 := N_0; omega⟩ : Fin 64) r o) := by
  obtain rfl : c = 0 := Subsingleton.elim _ _
  have hw : wordAt (F := Ideal) 0 (grid0.coords t) (tbl mI 0) = ids mI (sample t) := word_eq mI hs t _
  have hlt : (wordAt (F := Ideal) 0 (grid0.coords t) (tbl mI 0)).toNat < 32 := by rw [hw]; exact hs _
  have hrow : (⟨(wordAt (F := Ideal) 0 (grid0.coords t) (tbl mI 0)).toNat, hlt⟩ : Fin 32) = row (ids mI (sample t)) :=
    Fin.ext (by rw [row_val _ (hs _)]; exact congrArg BitVec.toNat hw)
  unfold outsAt0
  refine (congrFun (out_piece (F := Ideal) 0 (grid0.coords t) (ms0_0 mI (ok mI) t) (hs0_0 mI (ok mI) t)
    (ms0_1 mI (ok mI) t) (hs0_1 mI (ok mI) t) (ms0_2 mI (ok mI) t) (hs0_2 mI (ok mI) t) (ms0_3 mI (ok mI) t)
    (hs0_3 mI (ok mI) t) (xb mI 0 t) (wb mI 0 t) (bb mI 0 t) (tbl mI 0) (Hyps.c0 (hyps_of_lt mI hs) 0 t)) (ix3 u r o)).trans ?_
  refine (pay_apply (xb mI 0 t) _ _ u r o).trans ?_
  refine Eq.trans ?_ (affine_apply _ _ _ _ _ r o).symm
  refine congrArg₂ (· + ·) (Finset.sum_congr rfl fun k _ => congrArg₂ (· * ·) ?_ ?_) ?_
  · exact xblk_apply mI (ok mI) 0 t 0 r k
  · refine (ld_weights (F := Ideal) (wb mI 0 t) _ hlt _ 0 k o).trans ?_
    rw [hrow]
    exact wblk_apply mI (ok mI) 0 t _ k o
  · refine (ld_bias (F := Ideal) (bb mI 0 t) _ hlt _ 0 0 o).trans ?_
    rw [hrow]
    exact bblk_apply mI (ok mI) 0 t _ 0 o

/-- What point `t` writes back is block `t` of the affine map: element (u, r, o) of the block sits at (t, r, o). -/
theorem flushed_eq (hs : ∀ i, (ids mI i).toNat < 32) (c : Dev nD) (t : Fin (cfgM mI (ok mI)).N)
    (_ : ((cfgM mI (ok mI)).win 3).flush t = true) :
    (dats mI (ok mI) (hyps_of_lt mI hs) 0 c).flushed 3 t
      = (((cfgM mI (ok mI)).win 3).blk t).view.read (Elt Ideal) (result mI c) := by
  show ((cfgM mI (ok mI)).win 3).cut (grid0.coords t) ((dats mI (ok mI) (hyps_of_lt mI hs) 0 c).after 3 t) = _
  rw [after0_3]
  refine funext fun (y : S1x2048x256.Idx) => ?_
  obtain ⟨u, r, o, rfl⟩ : ∃ (u : Fin 1) (r : Fin 2048) (o : Fin 256), y = ix3 u r o := ⟨y 0, y 1, y 2, eq_ix3 y⟩
  show outsAt0 mI (ok mI) (hyps_of_lt mI hs) c t (ix3 u r o)
    = result mI c ((((cfgM mI (ok mI)).win 3).blk t).view.emb (ix3 u r o))
  rw [block_eq mI hs c t u r o]
  refine congrArg (result mI c) ?_
  funext a
  apply Fin.ext
  obtain ⟨-, -, -, e0, e1, e2⟩ := idx_facts t
  have hu : u.val = 0 := by omega
  match a with
  | ⟨0, _⟩ => show t.val = cc0_transform_3 (grid0.coords t) 0 * 1 + 1 * u.val; omega
  | ⟨1, _⟩ => show r.val = cc0_transform_3 (grid0.coords t) 1 * 2048 + 1 * r.val; omega
  | ⟨2, _⟩ => show o.val = cc0_transform_3 (grid0.coords t) 2 * 256 + 1 * o.val; omega

-- the window's shape is the output buffer's only after unfolding the pipeline's configuration at the table contents
set_option backward.isDefEq.respectTransparency.types false in
/-- An index of the output array is in point `t`'s block iff each coordinate is in the block's range on its axis. -/
theorem mem_blk (t : Fin (cfgM mI (ok mI)).N) (i : S64x2048x256.Idx) :
    i ∈ (((cfgM mI (ok mI)).win 3).blk t).view.set
      ↔ ∀ a : Fin 3, cc0_transform_3 (grid0.coords t) a * S1x2048x256.size a ≤ (i a).val
          ∧ (i a).val < cc0_transform_3 (grid0.coords t) a * S1x2048x256.size a + S1x2048x256.size a := by
  show i ∈ ((View.whole main_v2).slice (((cfgM mI (ok mI)).win 3).rect t)).set ↔ _
  rw [View.set_slice_whole]
  exact Rect.mem_set_unit

/-- The output blocks tile the array: index (b, r, o) is in the block of point `b`. -/
theorem cover (i : S64x2048x256.Idx) :
    ∃ t : Fin (cfgM mI (ok mI)).N, ((cfgM mI (ok mI)).win 3).flush t = true ∧ i ∈ (((cfgM mI (ok mI)).win 3).blk t).view.set := by
  have hN : (cfgM mI (ok mI)).N = 64 := N_0
  have hi0 : (i 0).val < 64 := (i 0).isLt
  have hi1 : (i 1).val < 2048 := (i 1).isLt
  have hi2 : (i 2).val < 256 := (i 2).isLt
  obtain ⟨t, ht⟩ : ∃ t : Fin (cfgM mI (ok mI)).N, t.val = (i 0).val := ⟨⟨(i 0).val, by rw [hN]; exact hi0⟩, rfl⟩
  obtain ⟨-, -, -, e0, e1, e2⟩ := idx_facts t
  refine ⟨t, flush0_3 _ t, ?_⟩
  rw [mem_blk]
  intro a
  match a with
  | ⟨0, _⟩ =>
    show cc0_transform_3 (grid0.coords t) 0 * 1 ≤ (i 0).val ∧ (i 0).val < cc0_transform_3 (grid0.coords t) 0 * 1 + 1
    omega
  | ⟨1, _⟩ =>
    show cc0_transform_3 (grid0.coords t) 1 * 2048 ≤ (i 1).val ∧ (i 1).val < cc0_transform_3 (grid0.coords t) 1 * 2048 + 2048
    omega
  | ⟨2, _⟩ =>
    show cc0_transform_3 (grid0.coords t) 2 * 256 ≤ (i 2).val ∧ (i 2).val < cc0_transform_3 (grid0.coords t) 2 * 256 + 256
    omega

/-- THE OUTPUT ARRAY after the last point holds the affine map. -/
theorem final (hs : ∀ i, (ids mI i).toNat < 32) (c : Dev nD) :
    (dats mI (ok mI) (hyps_of_lt mI hs) 0 c).arrAt 3 (cfgM mI (ok mI)).N = result mI c :=
  (dats mI (ok mI) (hyps_of_lt mI hs) 0 c).arrAt_eq_of_cover 3 (result mI c) (flushed_eq mI hs c) (cover mI)

/-- THE KERNEL'S RUN, its result named: every weakly fair execution ends with the output at the affine map of the
    arguments and the arguments as launched. -/
theorem run (hs : ∀ i, (ids mI i).toNat < 32) :
    θ_run defs (onTc (τ := τ) (main (F := Ideal))) ⟨mI, fun _ => 0, ρ⟩ fun r => ∀ c : Dev nD,
      r.2.mem ((c.tc : Thread nD τ).loc main_v2) = result mI c
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3) := by
  have H := run_main mI ρ (ok mI) (hyps_of_lt mI hs)
  refine (θ_run defs _ _).mono (fun _ hq c => ?_) H
  exact ⟨((hq c).1 3).trans (final mI hs c),
    ((hq c).1 0).trans (((dats mI (ok mI) (hyps_of_lt mI hs) 0 c).arrAt_in 0 rfl _).trans
      ((A_eq mI (ok mI) (hyps_of_lt mI hs) c 0).trans (V_main_arg0 mI c))),
    ((hq c).2 main_arg1 (by decide : main_arg1 ∈ Pipeline.restRefs sig spec0)).trans (V_main_arg1 mI c),
    ((hq c).1 1).trans (((dats mI (ok mI) (hyps_of_lt mI hs) 0 c).arrAt_in 1 rfl _).trans
      ((A_eq mI (ok mI) (hyps_of_lt mI hs) c 1).trans (V_main_arg2 mI c))),
    ((hq c).2 main_arg3 (by decide : main_arg3 ∈ Pipeline.restRefs sig spec0)).trans (V_main_arg3 mI c)⟩

end AtIdeal

end Cert.KernelIdeal.Blocks

end
-- ==== Proof.ReferenceAffine.lean ====
/-
  The reference computes the subject-selected affine map. Its program gathers, for every sample, the weight matrix and
  the bias row at the sample's id — after adding 32 to a negative id, the way a Python index counts from the end — and
  then takes one batched matrix product and adds the broadcast bias. A gather along the leading axis reads the table at
  the start word, signed, clamped into the table; for an id in [0, 32) neither the wrap nor the clamp moves it, so the
  gathered matrix of sample `b` is row `s b` of the table. The batched product at (b, t, o) is the sum over the one
  contracted coordinate k of x[b, t, k] · W'[b, k, o], and the bias is read at (b, o) whatever t is.
-/
import proofs.«426805_j72215580115411_3_alg».proof.Proof.Gen.ReferenceIdeal.Read
import proofs.«426805_j72215580115411_3_alg».proof.Proof.SubjectAffine
import proofs.«426805_j72215580115411_3_alg».proof.Proof.SubjectWord

set_option maxRecDepth 16384

noncomputable section

open scoped BigOperators

namespace Cert.ReferenceIdeal.Affine

open Cert.ReferenceIdeal Cert.ReferenceIdeal.Gen Cert.ReferenceIdeal.Read
open Idealize.ShloMosaic Idealize.ShloMosaic.ValueIdx
open Cert.Proof.SubjectAffine Cert.Proof

/-- The gather of weight matrices and the gather of bias rows. -/
abbrev gW := gather_S32x256x256_S64x1_S64x256x256_12_0_n_n_0_1_1256256
abbrev gB := gather_S32x256_S64x1_S64x256_1_0_n_n_0_1_1256

/-- Sample `b`'s start word sits at (b, 0) of the [64, 1] start-index array. -/
theorem siW (b : Fin 64) (k o : Fin 256) :
    gW.siIdx (ix3 b k o) ⟨List.idxOf (0 : Fin 3) gW.startIndexMap, List.idxOf_lt_length_iff.2 (by decide)⟩ = ix2 b (0 : Fin 1) := by
  funext e
  match e with
  | ⟨0, _⟩ => rfl
  | ⟨1, _⟩ => rfl

theorem siB (b : Fin 64) (o : Fin 256) :
    gB.siIdx (ix2 b o) ⟨List.idxOf (0 : Fin 2) gB.startIndexMap, List.idxOf_lt_length_iff.2 (by decide)⟩ = ix2 b (0 : Fin 1) := by
  funext e
  match e with
  | ⟨0, _⟩ => rfl
  | ⟨1, _⟩ => rfl

/-- The weight gather at (b, k, o): the table at (start word of b, clamped; k; o). The leading axis is collapsed and
    start-indexed, the other two are offset axes carrying the result's own coordinates. -/
theorem gatherW_apply {α : Type} (x : S32x256x256.Idx → α) (idx : IVec S64x1 32) (b : Fin 64) (k o : Fin 256) :
    Host.gather gW x idx (ix3 b k o)
      = x (ix3 (⟨min (idx (ix2 b (0 : Fin 1))).toInt.toNat 31, Nat.lt_succ_of_le (Nat.min_le_right _ _)⟩ : Fin 32) k o) := by
  unfold Host.gather
  refine congrArg x ?_
  funext a
  apply Fin.ext
  match a with
  | ⟨0, _⟩ =>
    show gW.start (ix3 b k o) idx 0 + gW.batchCoord (ix3 b k o) 0 + gW.offCoord (ix3 b k o) 0 = min _ 31
    rw [GatherDims.batchCoord_eq_zero _ _ _ (by decide), GatherDims.offCoord_eq_zero _ _ _ (by decide)]
    unfold GatherDims.start
    rw [dif_pos (by decide), siW]
    rfl
  | ⟨1, _⟩ =>
    show gW.start (ix3 b k o) idx 1 + gW.batchCoord (ix3 b k o) 1 + gW.offCoord (ix3 b k o) 1 = k.val
    rw [GatherDims.batchCoord_eq_zero _ _ _ (by decide)]
    unfold GatherDims.start
    rw [dif_neg (by decide)]
    unfold GatherDims.offCoord
    rw [dif_pos (by decide)]
    show 0 + 0 + k.val = k.val
    omega
  | ⟨2, _⟩ =>
    show gW.start (ix3 b k o) idx 2 + gW.batchCoord (ix3 b k o) 2 + gW.offCoord (ix3 b k o) 2 = o.val
    rw [GatherDims.batchCoord_eq_zero _ _ _ (by decide)]
    unfold GatherDims.start
    rw [dif_neg (by decide)]
    unfold GatherDims.offCoord
    rw [dif_pos (by decide)]
    show 0 + 0 + o.val = o.val
    omega

/-- The bias gather at (b, o): the table at (start word of b, clamped; o). -/
theorem gatherB_apply {α : Type} (x : S32x256.Idx → α) (idx : IVec S64x1 32) (b : Fin 64) (o : Fin 256) :
    Host.gather gB x idx (ix2 b o)
      = x (ix2 (⟨min (idx (ix2 b (0 : Fin 1))).toInt.toNat 31, Nat.lt_succ_of_le (Nat.min_le_right _ _)⟩ : Fin 32) o) := by
  unfold Host.gather
  refine congrArg x ?_
  funext a
  apply Fin.ext
  match a with
  | ⟨0, _⟩ =>
    show gB.start (ix2 b o) idx 0 + gB.batchCoord (ix2 b o) 0 + gB.offCoord (ix2 b o) 0 = min _ 31
    rw [GatherDims.batchCoord_eq_zero _ _ _ (by decide), GatherDims.offCoord_eq_zero _ _ _ (by decide)]
    unfold GatherDims.start
    rw [dif_pos (by decide), siB]
    rfl
  | ⟨1, _⟩ =>
    show gB.start (ix2 b o) idx 1 + gB.batchCoord (ix2 b o) 1 + gB.offCoord (ix2 b o) 1 = o.val
    rw [GatherDims.batchCoord_eq_zero _ _ _ (by decide)]
    unfold GatherDims.start
    rw [dif_neg (by decide)]
    unfold GatherDims.offCoord
    rw [dif_pos (by decide)]
    show 0 + 0 + o.val = o.val
    omega

/-- The start word of sample `b`, for either gather, is the id itself when the id is in range: the comparison with 0
    fails, so the "+ 32" branch is not taken. -/
theorem start_word (s : IVec S64 32) (b : Fin 64) (hb : (s (ix1 b)).toNat < 32) :
    val_main_v5 (F := Ideal) s (ix2 b (0 : Fin 1)) = s (ix1 b) := by
  rw [val_main_v5_apply]
  have e : idx_main_v5 (ix2 b (0 : Fin 1)) = ix1 b := funext fun a => by match a with | ⟨0, _⟩ => rfl
  rw [e, val_main_v4_apply, val_main_v1_apply, val_main_v3_apply, val_main_v0_apply, val_main_v2_apply,
    val_main_c_apply, val_main_c_0_apply]
  exact SubjectWord.wrap_eq _ hb

theorem start_word' (s : IVec S64 32) (b : Fin 64) (hb : (s (ix1 b)).toNat < 32) :
    val_main_v13 (F := Ideal) s (ix2 b (0 : Fin 1)) = s (ix1 b) := by
  rw [val_main_v13_apply]
  have e : idx_main_v13 (ix2 b (0 : Fin 1)) = ix1 b := funext fun a => by match a with | ⟨0, _⟩ => rfl
  rw [e, val_main_v12_apply, val_main_v9_apply, val_main_v11_apply, val_main_v8_apply, val_main_v10_apply,
    val_main_c_1_apply, val_main_c_2_apply]
  exact SubjectWord.wrap_eq _ hb

/-- A clamped start word in range names the id's own row. -/
theorem clamp_row (w : BitVec 32) (hw : w.toNat < 32) :
    (⟨min w.toInt.toNat 31, Nat.lt_succ_of_le (Nat.min_le_right _ _)⟩ : Fin 32) = row w :=
  Fin.ext (by show min w.toInt.toNat 31 = min w.toNat 31; rw [SubjectWord.toInt_toNat w hw])

/-- The gathered weights of sample `b` are row `s b` of the table. -/
theorem weights_apply (s : IVec S64 32) (W : FVec Ideal S32x256x256 .f32) (b : Fin 64) (k o : Fin 256)
    (hb : (s (ix1 b)).toNat < 32) :
    val_main_v6 (F := Ideal) s W (ix3 b k o) = W (ix3 (row (s (ix1 b))) k o) := by
  unfold val_main_v6
  rw [gatherW_apply, start_word s b hb, clamp_row _ hb]

/-- The gathered bias of sample `b` is row `s b` of the table. -/
theorem bias_apply (s : IVec S64 32) (bias : FVec Ideal S32x256 .f32) (b : Fin 64) (o : Fin 256)
    (hb : (s (ix1 b)).toNat < 32) :
    val_main_v14 (F := Ideal) s bias (ix2 b o) = bias (ix2 (row (s (ix1 b))) o) := by
  unfold val_main_v14
  rw [gatherB_apply, start_word' s b hb, clamp_row _ hb]

/-- THE REFERENCE'S RESULT is the subject-selected affine map of its arguments, when every id is in range. -/
theorem result_eq (x : FVec Ideal S64x2048x256 .f32) (s : IVec S64 32) (W : FVec Ideal S32x256x256 .f32)
    (bias : FVec Ideal S32x256 .f32) (hs : ∀ i, (s i).toNat < 32) :
    val_main_v17 (F := Ideal) x s W bias = affine x s W bias := by
  funext j
  obtain ⟨b, t, o, rfl⟩ : ∃ (b : Fin 64) (t : Fin 2048) (o : Fin 256), j = ix3 b t o := ⟨j 0, j 1, j 2, eq_ix3 j⟩
  rw [val_main_v17_apply, val_main_v7_apply, val_main_v16_apply, val_main_v15_apply, affine_apply]
  have el : ∀ k : Fin 256, lidx_main_v7 (ix3 b t o) k = ix3 b t k := fun k => funext fun a => by
    match a with | ⟨0, _⟩ => rfl | ⟨1, _⟩ => rfl | ⟨2, _⟩ => rfl
  have er : ∀ k : Fin 256, ridx_main_v7 (ix3 b t o) k = ix3 b k o := fun k => funext fun a => by
    match a with | ⟨0, _⟩ => rfl | ⟨1, _⟩ => rfl | ⟨2, _⟩ => rfl
  have eb : idx_main_v15 (idx_main_v16 (ix3 b t o)) = ix2 b o := funext fun a => by
    match a with | ⟨0, _⟩ => rfl | ⟨1, _⟩ => rfl
  rw [eb, bias_apply s bias b o (hs _)]
  show (∑ k : Fin 256, x (lidx_main_v7 (ix3 b t o) k) * val_main_v6 (F := Ideal) s W (ridx_main_v7 (ix3 b t o) k)) + _ = _
  refine congrArg (· + bias (ix2 (row (s (ix1 b))) o)) (Finset.sum_congr rfl fun k _ => ?_)
  rw [el, er, weights_apply s W b k o (hs _)]

end Cert.ReferenceIdeal.Affine

end
-- ==== Proof.lean ====
/-
  A batched matrix product whose weights and bias are looked up per sample: for 64 samples with [2048, 256]
  activations and a subject id each, y[b] = x[b] · W[id b] + bias[id b] over a table of 32 subjects. The kernel keeps both
  tables resident, reads the (clamped) id of sample b at grid point b and computes one sample per point; the reference
  gathers the 64 matrices and bias rows (wrapping a negative id Python-style) and takes one batched product. The two
  treat ids outside [0, 32) differently — the kernel clamps where the reference wraps — so the claim is stated, and
  holds, on ids in range: there both index the table at the id itself, and both results are the same sums and products
  of the same entries (Proof/SubjectAffine.lean's `affine`), equal on all extended reals with no use of finiteness.

  The pieces: the precondition read at one id (Proof/SubjectRange.lean, over Proof/SubjectWord.lean's facts about a
  word in [0, 32)); the kernel's table words and the side conditions its body assumes (Proof/KernelWords.lean, and the
  same text about the word-level program in Proof/KernelWordsBits.lean); the kernel's payload as arithmetic
  (Proof/KernelPayload.lean) and its output array block by block (Proof/KernelBlocks.lean); the reference's result
  (Proof/ReferenceAffine.lean). The idealization rewrote nothing, so `preserves` asks nothing.
-/
import proofs.«426805_j72215580115411_3_alg».proof.Defs
import proofs.«426805_j72215580115411_3_alg».proof.Proof.Gen.Kernel
import proofs.«426805_j72215580115411_3_alg».proof.Proof.Gen.Kernel.Frame
import proofs.«426805_j72215580115411_3_alg».proof.Proof.Gen.KernelIdeal
import proofs.«426805_j72215580115411_3_alg».proof.Proof.Gen.KernelIdeal.Frame
import proofs.«426805_j72215580115411_3_alg».proof.Proof.Gen.ReferenceIdeal
import proofs.«426805_j72215580115411_3_alg».proof.Proof.Gen.ReferenceIdeal.Run
import proofs.«426805_j72215580115411_3_alg».proof.Proof.Gen.ReferenceIdeal.Read
import proofs.«426805_j72215580115411_3_alg».proof.Proof.Gen.Pre_finite_inputs
import proofs.«426805_j72215580115411_3_alg».proof.Proof.SubjectRange
import proofs.«426805_j72215580115411_3_alg».proof.Proof.KernelWords
import proofs.«426805_j72215580115411_3_alg».proof.Proof.KernelWordsBits
import proofs.«426805_j72215580115411_3_alg».proof.Proof.KernelBlocks
import proofs.«426805_j72215580115411_3_alg».proof.Proof.ReferenceAffine
import Idealize.ShloMosaic.Adequacy
import Idealize.ShloMosaic.Init

noncomputable section

namespace Cert.Proof

open Idealize.ShloMosaic Idealize.SL.Sem

/-- The word-level kernel runs: under the precondition its ids are in range, so the loads its body assumes fit. -/
theorem frame_kernel : Cert.frame_Kernel := fun m ρ h =>
  Cert.Kernel.Gen.frame m ρ (Cert.Kernel.Words.ok m)
    (Cert.Kernel.Words.hyps_of_lt m fun i => SubjectRange.ids_lt _ _ _ _ (h 0) i)

/-- The idealized kernel runs, for the same reason. -/
theorem frame_kernelIdeal : Cert.frame_KernelIdeal := fun m ρ h =>
  Cert.KernelIdeal.Gen.frame m ρ (Cert.KernelIdeal.Words.ok m)
    (Cert.KernelIdeal.Words.hyps_of_lt m fun i => SubjectRange.ids_lt _ _ _ _ (h 0) i)

/-- The reference is a straight line of host operations: it runs from any memory. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the subject-selected affine map of the (shared) arguments. -/
theorem algebraic : Cert.algebraic_KernelIdeal_ReferenceIdeal := by
  intro m ρ m' ρ' h hagree
  have hs : ∀ i, (Cert.KernelIdeal.Words.ids m i).toNat < 32 := fun i => SubjectRange.ids_lt _ _ _ _ (h 0) i
  refine ⟨fun c => Cert.KernelIdeal.Blocks.result m c, Cert.KernelIdeal.Blocks.run m ρ hs, ?_⟩
  refine (θ_run Cert.ReferenceIdeal.defs _ _).mono (fun _ hq c => ⟨(hq c).1.trans ?_, (hq c).2⟩)
    (Cert.ReferenceIdeal.Value.run (F := Ideal) m' ρ')
  obtain rfl : c = 0 := Subsingleton.elim _ _
  rw [(hagree 0).1, (hagree 0).2.1, (hagree 0).2.2.1, (hagree 0).2.2.2]
  exact (Cert.ReferenceIdeal.Read.val_main_v17_eq _ _ _ _).trans (Cert.ReferenceIdeal.Affine.result_eq _ _ _ _ hs)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
